-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S16x128 : Shape := ⟨2, ![16, 128]⟩
abbrev S50000 : Shape := ⟨1, ![50000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S16x128 : S_.BroadcastsInDim S16x128 (![] : Fin 0 → Fin S16x128.rank)
  reducesTo_S16x128_S_d0_1 : S16x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S256x128 .f32) (main_arg8 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S800000x128 .f32) (main_arg3 : FVec F S16x128 .f32) (main_arg4 : IVec S50000 32) (main_arg5 : FVec F S256x128 .f32) (main_arg6 : FVec F S128 .f32) (main_arg7 : FVec F S256x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S16x128 .f32 := Host.absf main_arg3
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S16x128 : Shape := ⟨2, ![16, 128]⟩
abbrev S50000 : Shape := ⟨1, ![50000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S128x128 : Shape := ⟨2, ![128, 128]⟩
abbrev S1x128 : Shape := ⟨2, ![1, 128]⟩
abbrev S4000x128 : Shape := ⟨2, ![4000, 128]⟩
abbrev S50000x1 : Shape := ⟨2, ![50000, 1]⟩
abbrev S5000x128 : Shape := ⟨2, ![5000, 128]⟩

abbrev nBuf : Space → Nat
  | .hbm => 46
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S16x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S800000x128.size a
  hwx0_5 : ∀ i : grid0.Coords, EltTy.bits .f32 = 32 ∨ (Rect.block (s := S800000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S16x128 : Shape := ⟨2, ![16, 128]⟩
abbrev S50000 : Shape := ⟨1, ![50000]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S50000x1 : Shape := ⟨2, ![50000, 1]⟩
abbrev S50000x256 : Shape := ⟨2, ![50000, 256]⟩

abbrev nBuf : Space → Nat
  | .hbm => 54
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S16x128, .f32⟩
  | .hbm, ⟨4, _⟩ => ⟨S50000, .i32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x256, .f32⟩
  | .hbm, ⟨23, _⟩ => ⟨S800000x128, .f32⟩
  | .hbm, ⟨24, _⟩ => ⟨S1x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S800000x128, .f32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .f32⟩
  | .hbm, ⟨35, _⟩ => ⟨S800000, .f32⟩
  | .hbm, ⟨36, _⟩ => ⟨S_, .f32⟩
  | .hbm, ⟨37, _⟩ => ⟨S50000, .f32⟩
  | .hbm, ⟨38, _⟩ => ⟨S800000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S50000x256, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_cst : Ref sig .tc := ⟨.hbm, 51, rfl⟩
abbrev main_call1_v0 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Layer.lean ====
/- One two-input linear layer with a bias and a rectifier, as a function of whole arrays.

   For R rows and 128 features, the layer sends two R×128 arrays a and b, two 128×128 weight arrays wa and wb and
   a 1×128 bias to the R×128 array whose entry (p, q) is
       max ( (Σ_k a(p,k)·wa(k,q) + Σ_k b(p,k)·wb(k,q)) + bias(0,q) , 0 )
   on the extended reals. Both message-passing stages of the program are this function: the edge stage with
   R = 800000 (gathered source features and edge attributes) and the node stage with R = 50000 (node features and
   the aggregated messages). -/
import Idealize.ShloMosaic.PureOps.Ideal
import Idealize.ShloMosaic.Lib.ValueIdx

noncomputable section

namespace Cert.Layer

open Idealize.ShloMosaic Idealize.ShloMosaic.ValueIdx
open scoped BigOperators

/-- The float word of all zero bits, as an extended real. -/
abbrev zeroWord : EReal := Ideal.ofBits .f32 0x00000000#32

/-- Entry (p, q) of the layer: the two products summed, the bias of column q added, then the maximum with the zero word. -/
def entry {R : Nat} (a b : (⟨2, ![R, 128]⟩ : Shape).Idx → EReal) (wa wb : (⟨2, ![128, 128]⟩ : Shape).Idx → EReal)
    (bias : (⟨2, ![1, 128]⟩ : Shape).Idx → EReal) (p : Fin R) (q : Fin 128) : EReal :=
  max (((∑ k : Fin 128, a (ix2 p k) * wa (ix2 k q)) + ∑ k : Fin 128, b (ix2 p k) * wb (ix2 k q)) + bias (ix2 0 q)) zeroWord

/-- The layer as one function of its five arrays, index by index. -/
def layer (R : Nat) (a b : (⟨2, ![R, 128]⟩ : Shape).Idx → EReal) (wa wb : (⟨2, ![128, 128]⟩ : Shape).Idx → EReal)
    (bias : (⟨2, ![1, 128]⟩ : Shape).Idx → EReal) : (⟨2, ![R, 128]⟩ : Shape).Idx → EReal :=
  fun i => entry a b wa wb bias (i 0) (i 1)

theorem layer_ix2 {R : Nat} (a b : (⟨2, ![R, 128]⟩ : Shape).Idx → EReal) (wa wb : (⟨2, ![128, 128]⟩ : Shape).Idx → EReal)
    (bias : (⟨2, ![1, 128]⟩ : Shape).Idx → EReal) (p : Fin R) (q : Fin 128) :
    layer R a b wa wb bias (ix2 p q) = entry a b wa wb bias p q := rfl

end Cert.Layer

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.EdgeBody.lean ====
/- The edge kernel's body at one index: what it stores at row p, column q of its output block is the layer's entry
   (p, q) of the four blocks and the bias row it loaded. The two products go into zero accumulators, so each is the
   plain sum over the contracted coordinate; the narrowing of the operands to a shorter float format is the identity
   on the extended reals; the bias row is broadcast down the rows. -/
import proofs.«137687_j54589034332475_1_alg».proof.Proof.Gen.KernelIdeal.Skeleton
import proofs.«137687_j54589034332475_1_alg».proof.Proof.Layer
import proofs.«137687_j54589034332475_1_alg».proof.Proof.LibDotPlain
import Idealize.ShloMosaic.Lib.Pipeline.Value

noncomputable section

namespace Cert.KernelIdeal.EdgeBody

open Idealize.ShloMosaic Idealize.ShloMosaic.ValueIdx Cert.KernelIdeal Cert.KernelIdeal.Gen
open scoped BigOperators

/-- The bias row broadcast down 4000 rows, read at (p, q), is the bias at (0, q). -/
theorem bias_apply (x4 : FVec Ideal S1x128 .f32) (p : Fin 4000) (q : Fin 128) :
    broadcastTo S4000x128 x4 broadcasts_S1x128_S4000x128 (ix2 p q) = x4 (ix2 0 q) :=
  broadcastTo_apply x4 broadcasts_S1x128_S4000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The stored value at (p, q) is the layer's entry (p, q). -/
theorem pay_apply (x0 x1 : Vec Ideal S4000x128 .f32) (x2 x3 : Vec Ideal S128x128 .f32) (x4 : Vec Ideal S1x128 .f32)
    (p : Fin 4000) (q : Fin 128) :
    k0_pay1 (F := Ideal) x0 x1 x2 x3 x4 (ix2 p q) = Cert.Layer.entry x0 x1 x2 x3 x4 p q := by
  unfold k0_pay1 Cert.Layer.entry
  simp only [shapeCast_self]
  rw [maximumf_apply, addf_apply, addf_apply, bias_apply]
  have h1 := Cert.DotPlain.matmul_zero_rows_cols dot_S4000x128_S128x128_S4000x128_1_0_0_1_n_n rfl rfl rfl rfl rfl rfl none
    (truncf .bf16 x0 bitsLt_bf16_f32 : FVec Ideal S4000x128 .bf16) (truncf .bf16 x2 bitsLt_bf16_f32 : FVec Ideal S128x128 .bf16) p q
  have h2 := Cert.DotPlain.matmul_zero_rows_cols dot_S4000x128_S128x128_S4000x128_1_0_0_1_n_n rfl rfl rfl rfl rfl rfl none
    (truncf .bf16 x1 bitsLt_bf16_f32 : FVec Ideal S4000x128 .bf16) (truncf .bf16 x3 bitsLt_bf16_f32 : FVec Ideal S128x128 .bf16) p q
  exact congrArg₂ max (congrArg₂ (· + ·) (congrArg₂ (· + ·) h1 h2) rfl) rfl

end Cert.KernelIdeal.EdgeBody

end
-- ==== Proof.EdgeBlocks.lean ====
/- The edge stage's output array after its region, as one function of the arrays the region finds.

   The region walks 200 grid points; point t works on rows 4000·t … 4000·t + 3999 of the two row-blocked inputs and
   of the output, and on the whole of the two weight arrays and the bias row. What point t writes back is therefore
   rows 4000·t … of the layer applied to the whole arrays, and since the 200 row blocks tile the 800000 rows, the
   output array ends holding the layer of the whole arrays. -/
import proofs.«137687_j54589034332475_1_alg».proof.Proof.Gen.KernelIdeal.Frame
import proofs.«137687_j54589034332475_1_alg».proof.Proof.EdgeBody
import Idealize.ShloMosaic.Lib.Pipeline.Value

set_option maxRecDepth 16384

noncomputable section

namespace Cert.KernelIdeal.EdgeBlocks

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

variable (V : (c : Dev nD) → (b : Ref sig .tc) → Buf (Elt Ideal) ((c : Thread nD τ).loc b))

theorem zeroOffsets : (![0, 0] : Fin 2 → Nat) = fun _ => 0 := funext fun a => by fin_cases a <;> rfl

/-- The index maps over the grid: the two row-blocked inputs move with the output's row block and sit at column
    block 0; the weights and the bias stay at block (0, 0); the output's row block is below 200. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 199 ∧ win0_5.index t (1 : Fin 2) = 0 :=
  (by decide +kernel : ∀ t : Fin grid0.N, _)

/-- Every row block is some point's. -/
theorem idx_onto : ∀ (b : Fin 200), ∃ t : Fin cfg0.N, win0_5.index t = ![b.val, 0] :=
  (by decide +kernel : ∀ (b : Fin 200), ∃ t : Fin grid0.N, win0_5.index t = ![b.val, 0])

/-! ## Each input block, read at an index, is its array read at the row the output's block names -/

theorem read_rows0 (c : Dev nD) (t : Fin cfg0.N) (p : Fin 4000) (k : Fin 128) (r : Fin 800000)
    (hr : r.val = win0_5.index t (0 : Fin 2) * 4000 + p.val) :
    iblk0 V c 0 t (ix2 p k) = V c main_v10 (ix2 r k) := by
  obtain ⟨e0, e1, -⟩ := idx_facts t
  show V c main_v10 (((cfg0.win 0).blk t).view.emb (ix2 p k)) = V c main_v10 (ix2 r k)
  refine congrArg (V c main_v10) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

theorem read_rows1 (c : Dev nD) (t : Fin cfg0.N) (p : Fin 4000) (k : Fin 128) (r : Fin 800000)
    (hr : r.val = win0_5.index t (0 : Fin 2) * 4000 + p.val) :
    iblk0 V c 1 t (ix2 p k) = V c main_arg2 (ix2 r k) := by
  obtain ⟨-, -, e0, e1, -⟩ := idx_facts t
  show V c main_arg2 (((cfg0.win 1).blk t).view.emb (ix2 p k)) = V c main_arg2 (ix2 r k)
  refine congrArg (V c main_arg2) (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

theorem read_whole2 (c : Dev nD) (t : Fin cfg0.N) (k : Fin 128) (q : Fin 128) :
    iblk0 V c 2 t (ix2 k q) = V c main_v11 (ix2 k q) := by
  obtain ⟨-, -, -, -, e0, e1, -⟩ := idx_facts t
  show V c main_v11 (((cfg0.win 2).blk t).view.emb (ix2 k q)) = V c main_v11 (ix2 k q)
  refine congrArg (V c main_v11) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read_whole3 (c : Dev nD) (t : Fin cfg0.N) (k : Fin 128) (q : Fin 128) :
    iblk0 V c 3 t (ix2 k q) = V c main_v12 (ix2 k q) := by
  obtain ⟨-, -, -, -, -, -, e0, e1, -⟩ := idx_facts t
  show V c main_v12 (((cfg0.win 3).blk t).view.emb (ix2 k q)) = V c main_v12 (ix2 k q)
  refine congrArg (V c main_v12) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

theorem read_whole4 (c : Dev nD) (t : Fin cfg0.N) (z : Fin 1) (q : Fin 128) :
    iblk0 V c 4 t (ix2 z q) = V c main_v13 (ix2 z q) := by
  obtain ⟨-, -, -, -, -, -, -, -, e0, e1, -⟩ := idx_facts t
  show V c main_v13 (((cfg0.win 4).blk t).view.emb (ix2 z q)) = V c main_v13 (ix2 z q)
  refine congrArg (V c main_v13) (funext fun a => Fin.ext ?_)
  match a with
  | ⟨0, _⟩ => show win0_4.index t (0 : Fin 2) * 1 + 1 * z.val = z.val; omega
  | ⟨1, _⟩ => show win0_4.index t (1 : Fin 2) * 128 + 1 * q.val = q.val; omega

/-! ## What a point writes back -/

/-- The edge stage of the arrays the region finds. -/
abbrev edgeOf (c : Dev nD) : S800000x128.Idx → EReal :=
  Cert.Layer.layer 800000 (V c main_v10) (V c main_arg2) (V c main_v11) (V c main_v12) (V c main_v13)

/-- Point t writes back rows 4000·t … of the edge stage. -/
theorem flushed_eq (c : Dev nD) (t : Fin cfg0.N) :
    (dat0 V c).flushed 5 t = ((cfg0.win 5).blk t).view.read (Elt Ideal) (edgeOf V c) := by
  show (cfg0.win 5).cut (grid0.coords t) ((dat0 V c).after 5 t) = _
  rw [after0_5]
  unfold out0_5
  rw [View.canon_unit_zero zeroOffsets]
  simp only [View.ld_unit_zero (S := S4000x128) zeroOffsets, View.ld_unit_zero (S := S128x128) zeroOffsets,
    View.ld_unit_zero (S := S1x128) zeroOffsets]
  funext j
  obtain ⟨p, q, rfl⟩ : ∃ (p : Fin 4000) (q : Fin 128), j = ix2 p q := ⟨j 0, j 1, eq_ix2 j⟩
  obtain ⟨-, -, -, -, -, -, -, -, -, -, hb, hc⟩ := idx_facts t
  -- the array index the output's block gives (p, q): row 4000·(row block) + p, column q
  have hrow : (((cfg0.win 5).blk t).view.emb (ix2 p q) (0 : Fin 2)).val = win0_5.index t (0 : Fin 2) * 4000 + p.val := by
    show win0_5.index t (0 : Fin 2) * 4000 + 1 * p.val = _; omega
  have hcol : ((cfg0.win 5).blk t).view.emb (ix2 p q) (1 : Fin 2) = q := by
    apply Fin.ext; show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = Cert.Layer.entry (V c main_v10) (V c main_arg2) (V c main_v11) (V c main_v12) (V c main_v13)
        (((cfg0.win 5).blk t).view.emb (ix2 p q) (0 : Fin 2)) (((cfg0.win 5).blk t).view.emb (ix2 p q) (1 : Fin 2))
  rw [hcol]
  refine (EdgeBody.pay_apply (iblk0 V c 0 t) (iblk0 V c 1 t) (iblk0 V c 2 t) (iblk0 V c 3 t) (iblk0 V c 4 t) p q).trans ?_
  unfold Cert.Layer.entry
  refine congrArg₂ max (congrArg₂ (· + ·) (congrArg₂ (· + ·) ?_ ?_) ?_) rfl
  · exact Finset.sum_congr rfl fun k _ => congrArg₂ (· * ·) (read_rows0 V c t p k _ hrow) (read_whole2 V c t k q)
  · exact Finset.sum_congr rfl fun k _ => congrArg₂ (· * ·) (read_rows1 V c t p k _ hrow) (read_whole3 V c t k q)
  · exact read_whole4 V c t 0 q

/-! ## The row blocks tile the array -/

/-- An index is in point t's block iff each coordinate is in the block's range on its axis. -/
theorem mem_blk (t : Fin cfg0.N) (i : S800000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v14).slice (win0_5.rect t)).set ↔ _
  rw [View.set_slice_whole, Rect.mem_set_unit]
  exact Iff.rfl

/-- Every index of the output array is in the block of the point whose row block is (row / 4000). -/
theorem covered (i : S800000x128.Idx) :
    ∃ t : Fin cfg0.N, (cfg0.win 5).flush t = true ∧ i ∈ ((cfg0.win 5).blk t).view.set := by
  have hi0 : (i 0).val < 800000 := (i 0).isLt
  have hi1 : (i 1).val < 128 := (i 1).isLt
  obtain ⟨t, ht⟩ := idx_onto ⟨(i 0).val / 4000, by omega⟩
  have q0 : win0_5.index t (0 : Fin 2) = (i 0).val / 4000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The output array after the region is the edge stage of the arrays the region finds. -/
theorem final (c : Dev nD) : (dat0 V c).arrAt 5 cfg0.N = edgeOf V c :=
  (dat0 V c).arrAt_eq_of_cover 5 (edgeOf V c) (fun t _ => flushed_eq V c t) (covered)

end Cert.KernelIdeal.EdgeBlocks

end
-- ==== Proof.KernelValue.lean ====
/- The idealized program's result as one function of its argument arrays.

   The program runs: a stretch of host operations (the two rows of the edge list, the source rows wrapped and
   gathered, the two halves of each weight array, the biases as one-row arrays), the edge stage's region, a second
   stretch (the scatter mean: the edge stage's rows summed per destination node and divided by the larger of the
   node's in-degree and one; the second layer's weights and bias), and the node stage's region. Each region's
   output array is the layer of the arrays it finds, so the result is the node layer of the node features and the
   scatter mean of the edge layer of the gathered features and the edge attributes. -/
import proofs.«137687_j54589034332475_1_alg».proof.Proof.Gen.KernelIdeal.Frame
import proofs.«137687_j54589034332475_1_alg».proof.Proof.EdgeBlocks
import proofs.«137687_j54589034332475_1_alg».proof.Proof.NodeBlocks
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-! ## The pure pieces, as functions of the argument arrays -/

/-- Row r of the edge list as a vector of 800000 node numbers. -/
abbrev edgeRow0 (ei : (⟨S2x800000, .i32⟩ : BufTy).Contents (Elt Ideal)) : (⟨S800000, .i32⟩ : BufTy).Contents (Elt Ideal) :=
  shapeCast _ (extractStridedSlice S1x800000 ![0, 0] ei slices_S2x800000_S1x800000_0_0) shapeCasts_S1x800000_S800000
abbrev edgeRow1 (ei : (⟨S2x800000, .i32⟩ : BufTy).Contents (Elt Ideal)) : (⟨S800000, .i32⟩ : BufTy).Contents (Elt Ideal) :=
  shapeCast _ (extractStridedSlice S1x800000 ![1, 0] ei slices_S2x800000_S1x800000_1_0) shapeCasts_S1x800000_S800000

/-- The node features gathered at the source rows (a negative row number wrapped by the node count first). -/
def gathered (x : (⟨S50000x128, .f32⟩ : BufTy).Contents (Elt Ideal)) (ei : (⟨S2x800000, .i32⟩ : BufTy).Contents (Elt Ideal)) :
    (⟨S800000x128, .f32⟩ : BufTy).Contents (Elt Ideal) :=
  Host.gather gather_S50000x128_S800000x1_S800000x128_1_0_n_n_0_1_1128 x
    (broadcastInDim S800000x1 ![0] bcast_S800000_S800000x1_0
      (select (cmpi .slt (edgeRow0 ei) (broadcastInDim S800000 ![] bcast_S_S800000 (constantI S_ 32 0#32)))
        (addi (edgeRow0 ei) (broadcastInDim S800000 ![] bcast_S_S800000 (constantI S_ 32 50000#32))) (edgeRow0 ei)))

/-- The scatter mean of per-edge rows over the destination nodes. -/
def scatterMean (data : (⟨S800000x128, .f32⟩ : BufTy).Contents (Elt Ideal)) (dst : (⟨S800000, .i32⟩ : BufTy).Contents (Elt Ideal)) :
    (⟨S50000x128, .f32⟩ : BufTy).Contents (Elt Ideal) :=
  Host.divf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst) data)
    (broadcastInDim S50000x128 ![0, 1] bcast_S50000x1_S50000x128_0_1
      (broadcastInDim S50000x1 ![0] bcast_S50000_S50000x1_0
        (maximumf (F := Ideal)
          (Host.scatterAdd (F := Ideal) scatter_S50000_S800000x1_S800000_n_0_0_1
            (broadcastInDim S50000 ![] bcast_S_S50000 (constant (F := Ideal) S_ .f32 0x00000000#32))
            (broadcastInDim S800000x1 ![0] bcast_S800000_S800000x1_0 dst)
            (broadcastInDim S800000 ![] bcast_S_S800000 (constant (F := Ideal) S_ .f32 0x3F800000#32)))
          (broadcastInDim S50000 ![] bcast_S_S50000 (constant (F := Ideal) S_ .f32 0x3F800000#32)))))

/-! ## Before the edge stage: what the first stretch leaves -/

theorem W1_v10 (c : Dev nD) : W1 m ρ c (Proc.devRef .tc main_v10)
    = gathered (m ((c : Thread nD τ).loc main_arg0)) (m ((c : Thread nD τ).loc main_arg1)) := by
  show StableHlo.after hostOps0 (W0 m ρ c) (Proc.devRef .tc main_v10) = _
  dsimp only [hostOps0]; after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  dsimp only [hostOps0]; after_results <;> rfl
theorem W1_v11 (c : Dev nD) : W1 m ρ c (Proc.devRef .tc main_v11)
    = extractStridedSlice S128x128 ![0, 0] (m ((c : Thread nD τ).loc main_arg5)) slices_S256x128_S128x128_0_0 := by
  show StableHlo.after hostOps0 (W0 m ρ c) (Proc.devRef .tc main_v11) = _
  dsimp only [hostOps0]; after_results <;> rfl
theorem W1_v12 (c : Dev nD) : W1 m ρ c (Proc.devRef .tc main_v12)
    = extractStridedSlice S128x128 ![128, 0] (m ((c : Thread nD τ).loc main_arg5)) slices_S256x128_S128x128_128_0 := by
  show StableHlo.after hostOps0 (W0 m ρ c) (Proc.devRef .tc main_v12) = _
  dsimp only [hostOps0]; after_results <;> rfl
theorem W1_v13 (c : Dev nD) : W1 m ρ c (Proc.devRef .tc main_v13)
    = shapeCast S1x128 (m ((c : Thread nD τ).loc main_arg6)) shapeCasts_S128_S1x128 := by
  show StableHlo.after hostOps0 (W0 m ρ c) (Proc.devRef .tc main_v13) = _
  dsimp only [hostOps0]; after_results <;> rfl
theorem W1_v3 (c : Dev nD) : W1 m ρ c (Proc.devRef .tc main_v3) = edgeRow1 (m ((c : Thread nD τ).loc main_arg1)) := by
  show StableHlo.after hostOps0 (W0 m ρ c) (Proc.devRef .tc main_v3) = _
  dsimp only [hostOps0]; after_results <;> rfl
theorem W1_arg0 (c : Dev nD) : W1 m ρ c (Proc.devRef .tc main_arg0) = m ((c : Thread nD τ).loc main_arg0) := by
  show StableHlo.after hostOps0 (W0 m ρ c) (Proc.devRef .tc main_arg0) = _
  dsimp only [hostOps0]; after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  dsimp only [hostOps0]; after_results <;> rfl
theorem W1_arg8 (c : Dev nD) : W1 m ρ c (Proc.devRef .tc main_arg8) = m ((c : Thread nD τ).loc main_arg8) := by
  show StableHlo.after hostOps0 (W0 m ρ c) (Proc.devRef .tc main_arg8) = _
  dsimp only [hostOps0]; after_results <;> rfl

/-! ## After the edge stage -/

/-- The edge stage's output array: the layer of the gathered features, the edge attributes, the two halves of the
    first weight array and the first bias as a one-row array. -/
theorem W2_v14 (c : Dev nD) : W2 m ρ c (Proc.devRef .tc main_v14)
    = Cert.Layer.layer 800000 (gathered (m ((c : Thread nD τ).loc main_arg0)) (m ((c : Thread nD τ).loc main_arg1)))
        (m ((c : Thread nD τ).loc main_arg2))
        (extractStridedSlice S128x128 ![0, 0] (m ((c : Thread nD τ).loc main_arg5)) slices_S256x128_S128x128_0_0)
        (extractStridedSlice S128x128 ![128, 0] (m ((c : Thread nD τ).loc main_arg5)) slices_S256x128_S128x128_128_0)
        (shapeCast S1x128 (m ((c : Thread nD τ).loc main_arg6)) shapeCasts_S128_S1x128) := by
  refine ((W2_arr m ρ c 5).trans (EdgeBlocks.final (V1 m ρ) c)).trans ?_
  show Cert.Layer.layer 800000 (W1 m ρ c (Proc.devRef .tc main_v10)) (W1 m ρ c (Proc.devRef .tc main_arg2))
    (W1 m ρ c (Proc.devRef .tc main_v11)) (W1 m ρ c (Proc.devRef .tc main_v12)) (W1 m ρ c (Proc.devRef .tc main_v13)) = _
  rw [W1_v10, W1_arg2, W1_v11, W1_v12, W1_v13]

theorem W2_v3 (c : Dev nD) : W2 m ρ c (Proc.devRef .tc main_v3) = edgeRow1 (m ((c : Thread nD τ).loc main_arg1)) :=
  (W2_of_ne m ρ c main_v3 (by decide)).trans (W1_v3 m ρ c)
theorem W2_arg0 (c : Dev nD) : W2 m ρ c (Proc.devRef .tc main_arg0) = m ((c : Thread nD τ).loc main_arg0) :=
  (W2_of_ne m ρ c main_arg0 (by decide)).trans (W1_arg0 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)

/-! ## Before the node stage: what the second stretch leaves -/

theorem W3_arg0 (c : Dev nD) : W3 m ρ c (Proc.devRef .tc main_arg0) = m ((c : Thread nD τ).loc main_arg0) := by
  refine Eq.trans ?_ (W2_arg0 m ρ c)
  show StableHlo.after hostOps1 (W2 m ρ c) (Proc.devRef .tc main_arg0) = _
  dsimp only [hostOps1]; after_results <;> rfl
theorem W3_v26 (c : Dev nD) : W3 m ρ c (Proc.devRef .tc main_v26)
    = scatterMean (W2 m ρ c (Proc.devRef .tc main_v14)) (W2 m ρ c (Proc.devRef .tc main_v3)) := by
  show StableHlo.after hostOps1 (W2 m ρ c) (Proc.devRef .tc main_v26) = _
  dsimp only [hostOps1]; after_results <;> rfl
theorem W3_v27 (c : Dev nD) : W3 m ρ c (Proc.devRef .tc main_v27)
    = extractStridedSlice S128x128 ![0, 0] (m ((c : Thread nD τ).loc main_arg7)) slices_S256x128_S128x128_0_0 := by
  refine Eq.trans ?_ (congrArg (fun w => extractStridedSlice S128x128 ![0, 0] w slices_S256x128_S128x128_0_0) (W2_arg7 m ρ c))
  show StableHlo.after hostOps1 (W2 m ρ c) (Proc.devRef .tc main_v27) = _
  dsimp only [hostOps1]; after_results <;> rfl
theorem W3_v28 (c : Dev nD) : W3 m ρ c (Proc.devRef .tc main_v28)
    = extractStridedSlice S128x128 ![128, 0] (m ((c : Thread nD τ).loc main_arg7)) slices_S256x128_S128x128_128_0 := by
  refine Eq.trans ?_ (congrArg (fun w => extractStridedSlice S128x128 ![128, 0] w slices_S256x128_S128x128_128_0) (W2_arg7 m ρ c))
  show StableHlo.after hostOps1 (W2 m ρ c) (Proc.devRef .tc main_v28) = _
  dsimp only [hostOps1]; after_results <;> rfl
theorem W3_v29 (c : Dev nD) : W3 m ρ c (Proc.devRef .tc main_v29)
    = shapeCast S1x128 (m ((c : Thread nD τ).loc main_arg8)) shapeCasts_S128_S1x128 := by
  refine Eq.trans ?_ (congrArg (fun w => shapeCast S1x128 w shapeCasts_S128_S1x128) (W2_arg8 m ρ c))
  show StableHlo.after hostOps1 (W2 m ρ c) (Proc.devRef .tc main_v29) = _
  dsimp only [hostOps1]; after_results <;> rfl

/-! ## The result -/

/-- The result as a function of the argument arrays. -/
def resultOf (x : (⟨S50000x128, .f32⟩ : BufTy).Contents (Elt Ideal)) (ei : (⟨S2x800000, .i32⟩ : BufTy).Contents (Elt Ideal))
    (ea : (⟨S800000x128, .f32⟩ : BufTy).Contents (Elt Ideal)) (w1 : (⟨S256x128, .f32⟩ : BufTy).Contents (Elt Ideal))
    (b1 : (⟨S128, .f32⟩ : BufTy).Contents (Elt Ideal)) (w2 : (⟨S256x128, .f32⟩ : BufTy).Contents (Elt Ideal))
    (b2 : (⟨S128, .f32⟩ : BufTy).Contents (Elt Ideal)) : (⟨S50000x128, .f32⟩ : BufTy).Contents (Elt Ideal) :=
  Cert.Layer.layer 50000 x
    (scatterMean
      (Cert.Layer.layer 800000 (gathered x ei) ea
        (extractStridedSlice S128x128 ![0, 0] w1 slices_S256x128_S128x128_0_0)
        (extractStridedSlice S128x128 ![128, 0] w1 slices_S256x128_S128x128_128_0)
        (shapeCast S1x128 b1 shapeCasts_S128_S1x128))
      (edgeRow1 ei))
    (extractStridedSlice S128x128 ![0, 0] w2 slices_S256x128_S128x128_0_0)
    (extractStridedSlice S128x128 ![128, 0] w2 slices_S256x128_S128x128_128_0)
    (shapeCast S1x128 b2 shapeCasts_S128_S1x128)

/-- The result array at the last boundary is that function of the launch memory's arguments. -/
theorem W4_v30 (c : Dev nD) : W4 m ρ c (Proc.devRef .tc main_v30)
    = resultOf (m ((c : Thread nD τ).loc main_arg0)) (m ((c : Thread nD τ).loc main_arg1)) (m ((c : Thread nD τ).loc main_arg2))
        (m ((c : Thread nD τ).loc main_arg5)) (m ((c : Thread nD τ).loc main_arg6)) (m ((c : Thread nD τ).loc main_arg7))
        (m ((c : Thread nD τ).loc main_arg8)) := by
  refine ((W4_arr m ρ c 5).trans (NodeBlocks.final (V3 m ρ) c)).trans ?_
  show Cert.Layer.layer 50000 (W3 m ρ c (Proc.devRef .tc main_arg0)) (W3 m ρ c (Proc.devRef .tc main_v26))
    (W3 m ρ c (Proc.devRef .tc main_v27)) (W3 m ρ c (Proc.devRef .tc main_v28)) (W3 m ρ c (Proc.devRef .tc main_v29)) = _
  rw [W3_arg0, W3_v26, W3_v27, W3_v28, W3_v29, W2_v14, W2_v3]
  rfl

end Cert.KernelIdeal.KernelValue

end
-- ==== Proof.HostLayer.lean ====
/- The reference's way of computing one layer is the layer.

   The reference joins its two R×128 inputs side by side into one R×256 array, multiplies it by the whole 256×128
   weight array, adds the bias (a 128-vector broadcast to a row and then down the rows) and takes the maximum with
   zero. A sum over 256 contracted positions is the sum over the first 128 plus the sum over the last 128; in the
   first half the joined array reads the first input and the weights' rows 0…127, in the second half the second input
   and the weights' rows 128…255. So the result is the layer of the two inputs, the two halves of the weight array,
   and the bias as a one-row array. Only the commutative-monoid laws of addition are used: nothing here needs an
   entry to be finite. -/
import proofs.«137687_j54589034332475_1_alg».proof.Proof.Layer
import proofs.«137687_j54589034332475_1_alg».proof.Proof.LibDotPlain
import Idealize.ShloMosaic.Lib.Pipeline.Value

noncomputable section

namespace Cert.HostLayer

open Idealize.ShloMosaic Idealize.ShloMosaic.ValueIdx
open scoped BigOperators

variable {R : Nat}

/-- The joined array at a column of the first half reads the first input. -/
theorem cat_left (a b : FVec Ideal ⟨2, ![R, 128]⟩ .f32)
    (hcat : Shape.Concatenates [(⟨2, ![R, 128]⟩ : Shape), ⟨2, ![R, 128]⟩] ⟨2, ![R, 256]⟩ 1) (p : Fin R) (k : Fin 128) :
    concatenate (⟨2, ![R, 256]⟩ : Shape) 1 [⟨⟨2, ![R, 128]⟩, a⟩, ⟨⟨2, ![R, 128]⟩, b⟩] hcat (ix2 p (Fin.castAdd 128 k)) = a (ix2 p k) :=
  concatenate_pair_apply_left (1 : Fin 2) a b hcat (ix2 p (Fin.castAdd 128 k)) rfl (ix2 p k) (fun ax => match ax with
    | ⟨0, _⟩ => rfl
    | ⟨1, _⟩ => rfl)

/-- The joined array at a column of the second half reads the second input, 128 columns back. -/
theorem cat_right (a b : FVec Ideal ⟨2, ![R, 128]⟩ .f32)
    (hcat : Shape.Concatenates [(⟨2, ![R, 128]⟩ : Shape), ⟨2, ![R, 128]⟩] ⟨2, ![R, 256]⟩ 1) (p : Fin R) (k : Fin 128) :
    concatenate (⟨2, ![R, 256]⟩ : Shape) 1 [⟨⟨2, ![R, 128]⟩, a⟩, ⟨⟨2, ![R, 128]⟩, b⟩] hcat (ix2 p (Fin.natAdd 128 k)) = b (ix2 p k) :=
  concatenate_pair_apply_right (1 : Fin 2) a b hcat (ix2 p (Fin.natAdd 128 k)) rfl rfl (ix2 p k)
    (fun ax hne => match ax with
      | ⟨0, _⟩ => rfl
      | ⟨1, _⟩ => absurd rfl hne)
    (by show k.val + 128 = 128 + k.val; omega)

/-- Rows 0…127 of the weight array, read at (k, q). -/
theorem slice_top (W : FVec Ideal ⟨2, ![256, 128]⟩ .f32) (hs : (⟨2, ![256, 128]⟩ : Shape).Slices ![0, 0] ⟨2, ![128, 128]⟩)
    (k q : Fin 128) : extractStridedSlice (⟨2, ![128, 128]⟩ : Shape) ![0, 0] W hs (ix2 k q) = W (ix2 (Fin.castAdd 128 k) q) :=
  extractStridedSlice_apply ![0, 0] W hs (ix2 k q) (ix2 (Fin.castAdd 128 k) q) (fun ax => match ax with
    | ⟨0, _⟩ => by show k.val = 0 + k.val; omega
    | ⟨1, _⟩ => by show q.val = 0 + q.val; omega)

/-- Rows 128…255 of the weight array, read at (k, q). -/
theorem slice_bottom (W : FVec Ideal ⟨2, ![256, 128]⟩ .f32) (hs : (⟨2, ![256, 128]⟩ : Shape).Slices ![128, 0] ⟨2, ![128, 128]⟩)
    (k q : Fin 128) : extractStridedSlice (⟨2, ![128, 128]⟩ : Shape) ![128, 0] W hs (ix2 k q) = W (ix2 (Fin.natAdd 128 k) q) :=
  extractStridedSlice_apply ![128, 0] W hs (ix2 k q) (ix2 (Fin.natAdd 128 k) q) (fun ax => match ax with
    | ⟨0, _⟩ => by show 128 + k.val = 128 + k.val; rfl
    | ⟨1, _⟩ => by show q.val = 0 + q.val; omega)

/-- The bias broadcast to a row and then down the rows, read at (p, q), is the bias as a one-row array at (0, q). -/
theorem bias_apply (bias : FVec Ideal ⟨1, ![128]⟩ .f32)
    (hb1 : (⟨1, ![128]⟩ : Shape).BroadcastsInDim ⟨2, ![1, 128]⟩ ![1])
    (hb2 : (⟨2, ![1, 128]⟩ : Shape).BroadcastsInDim ⟨2, ![R, 128]⟩ ![0, 1])
    (hc : (⟨1, ![128]⟩ : Shape).ShapeCasts ⟨2, ![1, 128]⟩) (p : Fin R) (q : Fin 128) :
    broadcastInDim (⟨2, ![R, 128]⟩ : Shape) ![0, 1] hb2 (broadcastInDim (⟨2, ![1, 128]⟩ : Shape) ![1] hb1 bias) (ix2 p q)
      = shapeCast (⟨2, ![1, 128]⟩ : Shape) bias hc (ix2 0 q) := by
  rw [broadcastInDim_apply ![0, 1] hb2 _ (ix2 p q) (ix2 0 q) (fun ax => match ax with
    | ⟨0, _⟩ => by show (0 : Nat) = if (1 : Nat) = 1 then 0 else _; rw [if_pos rfl]
    | ⟨1, _⟩ => by show q.val = if (128 : Nat) = 1 then 0 else q.val; rw [if_neg (by decide)])]
  rw [broadcastInDim_apply ![1] hb1 bias (ix2 0 q) (ix1 q) (fun ax => match ax with
    | ⟨0, _⟩ => by show q.val = if (128 : Nat) = 1 then 0 else q.val; rw [if_neg (by decide)])]
  refine (shapeCast_apply bias hc (ix2 0 q) (ix1 q) ?_).symm
  rw [Shape.rowMajor_val_one, Shape.rowMajor_val_two]
  show q.val = 0 * 128 + q.val
  omega

/-- The reference's layer is the layer. -/
theorem host_layer (d : DotDims ⟨2, ![R, 256]⟩ ⟨2, ![256, 128]⟩ ⟨2, ![R, 128]⟩)
    (hlb : d.lhsBatch = []) (hrb : d.rhsBatch = []) (hlc : d.lhsContracting = [1]) (hrc : d.rhsContracting = [0])
    (hln : d.lhsNonContracting = [0]) (hrn : d.rhsNonContracting = [1])
    (hcat : Shape.Concatenates [(⟨2, ![R, 128]⟩ : Shape), ⟨2, ![R, 128]⟩] ⟨2, ![R, 256]⟩ 1)
    (hb1 : (⟨1, ![128]⟩ : Shape).BroadcastsInDim ⟨2, ![1, 128]⟩ ![1])
    (hb2 : (⟨2, ![1, 128]⟩ : Shape).BroadcastsInDim ⟨2, ![R, 128]⟩ ![0, 1])
    (hb0 : (⟨0, ![]⟩ : Shape).BroadcastsInDim ⟨2, ![R, 128]⟩ ![])
    (hs0 : (⟨2, ![256, 128]⟩ : Shape).Slices ![0, 0] ⟨2, ![128, 128]⟩)
    (hs1 : (⟨2, ![256, 128]⟩ : Shape).Slices ![128, 0] ⟨2, ![128, 128]⟩)
    (hc : (⟨1, ![128]⟩ : Shape).ShapeCasts ⟨2, ![1, 128]⟩)
    (a b : FVec Ideal ⟨2, ![R, 128]⟩ .f32) (W : FVec Ideal ⟨2, ![256, 128]⟩ .f32) (bias : FVec Ideal ⟨1, ![128]⟩ .f32) :
    maximumf (addf (Host.dotGeneral d none (concatenate (⟨2, ![R, 256]⟩ : Shape) 1 [⟨⟨2, ![R, 128]⟩, a⟩, ⟨⟨2, ![R, 128]⟩, b⟩] hcat) W)
        (broadcastInDim (⟨2, ![R, 128]⟩ : Shape) ![0, 1] hb2 (broadcastInDim (⟨2, ![1, 128]⟩ : Shape) ![1] hb1 bias)))
      (broadcastInDim (⟨2, ![R, 128]⟩ : Shape) ![] hb0 (constant (F := Ideal) (⟨0, ![]⟩ : Shape) .f32 0x00000000#32))
    = Cert.Layer.layer R a b (extractStridedSlice (⟨2, ![128, 128]⟩ : Shape) ![0, 0] W hs0)
        (extractStridedSlice (⟨2, ![128, 128]⟩ : Shape) ![128, 0] W hs1) (shapeCast (⟨2, ![1, 128]⟩ : Shape) bias hc) := by
  funext i
  obtain ⟨p, q, rfl⟩ : ∃ (p : Fin R) (q : Fin 128), i = ix2 p q := ⟨i 0, i 1, eq_ix2 i⟩
  rw [Cert.Layer.layer_ix2]
  unfold Cert.Layer.entry
  rw [maximumf_apply, addf_apply, bias_apply bias hb1 hb2 hc p q]
  have hzero : broadcastInDim (⟨2, ![R, 128]⟩ : Shape) ![] hb0 (constant (F := Ideal) (⟨0, ![]⟩ : Shape) .f32 0x00000000#32) (ix2 p q)
      = Cert.Layer.zeroWord :=
    broadcastInDim_apply ![] hb0 _ (ix2 p q) ix0 (fun ax => ax.elim0)
  rw [hzero]
  have hdot : Host.dotGeneral d none (concatenate (⟨2, ![R, 256]⟩ : Shape) 1 [⟨⟨2, ![R, 128]⟩, a⟩, ⟨⟨2, ![R, 128]⟩, b⟩] hcat) W (ix2 p q)
      = (∑ k : Fin 128, a (ix2 p k) * extractStridedSlice (⟨2, ![128, 128]⟩ : Shape) ![0, 0] W hs0 (ix2 k q))
        + ∑ k : Fin 128, b (ix2 p k) * extractStridedSlice (⟨2, ![128, 128]⟩ : Shape) ![128, 0] W hs1 (ix2 k q) := by
    simp only [Host.dotGeneral]
    rw [Cert.DotPlain.dotGeneral_rows_cols d hlb hrb hlc hrc hln hrn]
    -- the 256 contracted positions are the first 128 and then the last 128
    rw [show (∑ k : Fin 256, concatenate (⟨2, ![R, 256]⟩ : Shape) 1 [⟨⟨2, ![R, 128]⟩, a⟩, ⟨⟨2, ![R, 128]⟩, b⟩] hcat (ix2 p k) * W (ix2 k q))
        = (∑ k : Fin 128, concatenate (⟨2, ![R, 256]⟩ : Shape) 1 [⟨⟨2, ![R, 128]⟩, a⟩, ⟨⟨2, ![R, 128]⟩, b⟩] hcat (ix2 p (Fin.castAdd 128 k)) * W (ix2 (Fin.castAdd 128 k) q))
          + ∑ k : Fin 128, concatenate (⟨2, ![R, 256]⟩ : Shape) 1 [⟨⟨2, ![R, 128]⟩, a⟩, ⟨⟨2, ![R, 128]⟩, b⟩] hcat (ix2 p (Fin.natAdd 128 k)) * W (ix2 (Fin.natAdd 128 k) q)
        from Fin.sum_univ_add (M := EReal) (a := 128) (b := 128) _]
    refine congrArg₂ (· + ·) (Finset.sum_congr rfl fun k _ => ?_) (Finset.sum_congr rfl fun k _ => ?_)
    · rw [cat_left a b hcat p k, slice_top W hs0 k q]
    · rw [cat_right a b hcat p k, slice_bottom W hs1 k q]
  rw [hdot]

end Cert.HostLayer

end
-- ==== Proof.RefValue.lean ====
/- The reference's result is the same function of the argument arrays as the idealized program's.

   The reference computes each layer on the side-by-side join of its two inputs against the whole weight array; that
   is the layer on the two inputs and the two halves of the weight array. Between the two layers both programs apply
   the same scatter mean to the same destination rows, and before the first the same wrapped gather: those are
   carried as they are, the values going into them shown equal. -/
import proofs.«137687_j54589034332475_1_alg».proof.Proof.Gen.ReferenceIdeal.Read
import proofs.«137687_j54589034332475_1_alg».proof.Proof.HostLayer
import proofs.«137687_j54589034332475_1_alg».proof.Proof.KernelValue

noncomputable section

namespace Cert.RefValue

open Idealize.ShloMosaic Idealize.ShloMosaic.ValueIdx
open Cert.ReferenceIdeal Cert.ReferenceIdeal.Gen Cert.ReferenceIdeal.Read

variable (x0 : (⟨S50000x128, .f32⟩ : BufTy).Contents (Elt Ideal)) (x1 : (⟨S2x800000, .i32⟩ : BufTy).Contents (Elt Ideal))
  (x2 : (⟨S800000x128, .f32⟩ : BufTy).Contents (Elt Ideal)) (x5 : (⟨S256x128, .f32⟩ : BufTy).Contents (Elt Ideal))
  (x6 : (⟨S128, .f32⟩ : BufTy).Contents (Elt Ideal)) (x7 : (⟨S256x128, .f32⟩ : BufTy).Contents (Elt Ideal))
  (x8 : (⟨S128, .f32⟩ : BufTy).Contents (Elt Ideal))

/-- The reference's gathered features are the idealized program's. -/
theorem gathered_eq : val_main_v10 (F := Ideal) x0 x1 = Cert.KernelIdeal.KernelValue.gathered x0 x1 := rfl

/-- The reference's first layer is the edge layer on the gathered features and the edge attributes. -/
theorem edge_eq : val_main_v16 (F := Ideal) x0 x1 x2 x5 x6
    = Cert.Layer.layer 800000 (Cert.KernelIdeal.KernelValue.gathered x0 x1) x2
        (extractStridedSlice Cert.KernelIdeal.S128x128 ![0, 0] x5 Cert.KernelIdeal.Gen.slices_S256x128_S128x128_0_0)
        (extractStridedSlice Cert.KernelIdeal.S128x128 ![128, 0] x5 Cert.KernelIdeal.Gen.slices_S256x128_S128x128_128_0)
        (shapeCast Cert.KernelIdeal.S1x128 x6 Cert.KernelIdeal.Gen.shapeCasts_S128_S1x128) := by
  unfold val_main_v16 val_main_v15 val_main_v12 val_main_v11 val_main_v14 val_main_v13 val_main_call0_v0 val_main_call0_cst
  rw [gathered_eq]
  exact Cert.HostLayer.host_layer (R := 800000) dot_S800000x256_S256x128_S800000x128_1_0_0_1_n_n rfl rfl rfl rfl rfl rfl
    concatenates_S800000x128_S800000x128_S800000x256_d1 bcast_S128_S1x128_1 bcast_S1x128_S800000x128_0_1 bcast_S_S800000x128
    Cert.KernelIdeal.Gen.slices_S256x128_S128x128_0_0 Cert.KernelIdeal.Gen.slices_S256x128_S128x128_128_0
    Cert.KernelIdeal.Gen.shapeCasts_S128_S1x128 (Cert.KernelIdeal.KernelValue.gathered x0 x1) x2 x5 x6

/-- The reference's aggregated messages are the scatter mean of its first layer over the destination rows. -/
theorem mean_eq : val_main_v28 (F := Ideal) x0 x1 x2 x5 x6
    = Cert.KernelIdeal.KernelValue.scatterMean (val_main_v16 (F := Ideal) x0 x1 x2 x5 x6) (Cert.KernelIdeal.KernelValue.edgeRow1 x1) := rfl

/-- The reference's result is the idealized program's function of the arguments. -/
theorem result_eq : val_main_v34 (F := Ideal) x0 x1 x2 x5 x6 x7 x8
    = Cert.KernelIdeal.KernelValue.resultOf x0 x1 x2 x5 x6 x7 x8 := by
  unfold val_main_v34 val_main_v33 val_main_v30 val_main_v29 val_main_v32 val_main_v31 val_main_call1_v0 val_main_call1_cst
  rw [mean_eq, edge_eq]
  exact Cert.HostLayer.host_layer (R := 50000) dot_S50000x256_S256x128_S50000x128_1_0_0_1_n_n rfl rfl rfl rfl rfl rfl
    concatenates_S50000x128_S50000x128_S50000x256_d1 bcast_S128_S1x128_1 bcast_S1x128_S50000x128_0_1 bcast_S_S50000x128
    Cert.KernelIdeal.Gen.slices_S256x128_S128x128_0_0 Cert.KernelIdeal.Gen.slices_S256x128_S128x128_128_0
    Cert.KernelIdeal.Gen.shapeCasts_S128_S1x128 x0 _ x7 x8

end Cert.RefValue

end
-- ==== Proof.lean ====
/- A two-layer message-passing step on a graph of 50000 nodes and 800000 edges, 128 features each.

   Both programs gather the source node's features for every edge, apply a first layer to (gathered features,
   edge attributes), average the resulting rows over each destination node (the sum of the rows scattered to the
   node, divided by the larger of the node's in-degree and one), and apply a second layer to (node features,
   averaged messages). A layer is max(a·Wa + b·Wb + bias, 0) with Wa, Wb the top and bottom halves of a 256×128
   weight array.

   The kernel program computes each layer in a blocked region: 4000 (resp. 5000) rows per grid point, the two
   products into zero accumulators, operands narrowed to a shorter float format first. On the extended reals the
   narrowing is the identity and a product into a zero accumulator is the plain sum over the contracted coordinate,
   so each grid point writes back its rows of the layer of the whole arrays, and the row blocks tile the output.
   The reference joins the two inputs side by side and multiplies by the whole weight array: a sum over 256
   contracted positions, which is the sum over the first 128 plus the sum over the last 128. That regrouping of a
   finite sum is the only law joining the two sides; it holds for all extended reals, so the finiteness of the
   inputs is never used. The gather, the index wrap and the scatter mean are the same operations on both sides and
   are carried unopened.

   Frames: the two kernel programs' frames are the generated ones; the reference's is its run with the result
   dropped. The idealization rewrote nothing, so there is nothing to preserve. -/
import proofs.«137687_j54589034332475_1_alg».proof.Defs
import proofs.«137687_j54589034332475_1_alg».proof.Proof.Gen.Kernel
import proofs.«137687_j54589034332475_1_alg».proof.Proof.Gen.Kernel.Frame
import proofs.«137687_j54589034332475_1_alg».proof.Proof.Gen.KernelIdeal
import proofs.«137687_j54589034332475_1_alg».proof.Proof.Gen.KernelIdeal.Frame
import proofs.«137687_j54589034332475_1_alg».proof.Proof.Gen.ReferenceIdeal
import proofs.«137687_j54589034332475_1_alg».proof.Proof.Gen.Pre_finite_inputs
import proofs.«137687_j54589034332475_1_alg».proof.Proof.Gen.ReferenceIdeal.Run
import proofs.«137687_j54589034332475_1_alg».proof.Proof.Gen.ReferenceIdeal.Read
import proofs.«137687_j54589034332475_1_alg».proof.Proof.RunNamed
import proofs.«137687_j54589034332475_1_alg».proof.Proof.KernelValue
import proofs.«137687_j54589034332475_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the same function of the (agreeing) argument arrays. -/
theorem algebraic : Cert.algebraic_KernelIdeal_ReferenceIdeal := by
  intro m ρ m' ρ' _ hagree
  refine ⟨fun c => Cert.KernelIdeal.KernelValue.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KernelValue.W4_v30 m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, -, -, h5, h6, h7, h8⟩ := hagree c
    refine (Cert.ReferenceIdeal.Read.val_main_v34_eq (F := Ideal) _ _ _ _ _ _ _).trans ?_
    rw [Cert.RefValue.result_eq, h0, h1, h2, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
